-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x4096 : Shape := ⟨2, ![1024, 4096]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16x1024x1024 .f32) (main_arg1 : FVec F S1024x4096 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S16x1024x1024 : Shape := ⟨3, ![16, 1024, 1024]⟩
abbrev S1024x4096 : Shape := ⟨2, ![1024, 4096]⟩
abbrev S16x1024x4096 : Shape := ⟨3, ![16, 1024, 4096]⟩
abbrev S1x1024x1024 : Shape := ⟨3, ![1, 1024, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S1024x4096, .f32⟩
  | .hbm, ⟨2, _⟩ => ⟨S16x1024x1024, .bf16⟩
  | .hbm, ⟨3, _⟩ => ⟨S1024x4096, .bf16⟩
  | .hbm, ⟨4, _⟩ => ⟨S16x1024x4096, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x2048, .f32⟩
  | .local _ .vmem, ⟨5, _⟩ => ⟨S1x1024x2048, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x2048_d0_w32 : S1024x2048.Iotas .tc 32 [0]
  iota_S1024x2048_d1_w32 : S1024x2048.Iotas .tc 32 [1]
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .bf16 = 32 ∨ (Rect.block (s := S16x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x4096.size a
  hwx0_1 : ∀ i : grid0.Coords, EltTy.bits .bf16 = 32 ∨ (Rect.block (s := S1024x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S16x1024x4096.size a
  hwx0_2 : ∀ i : grid0.Coords, EltTy.bits .f32 = 32 ∨ (Rect.block (s := S16x1024x4096) S1x1024x2048.size (cc0_transform_2 i) (hinb0_2 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S16x1024x4096 : Shape := ⟨3, ![16, 1024, 4096]⟩
abbrev S1x1024x4096 : Shape := ⟨3, ![1, 1024, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S1024x4096, .f32⟩
  | .hbm, ⟨2, _⟩ => ⟨S1024, .i32⟩
  | .hbm, ⟨3, _⟩ => ⟨S1024x1, .i32⟩
  | .hbm, ⟨4, _⟩ => ⟨S4096, .i32⟩
  | .hbm, ⟨5, _⟩ => ⟨S1x4096, .i32⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x4096, .i32⟩
  | .hbm, ⟨10, _⟩ => ⟨S1024x4096, .i32⟩
  | .hbm, ⟨11, _⟩ => ⟨S1024x4096, .i1⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S_, .i32⟩
  | .hbm, ⟨16, _⟩ => ⟨S1024x1, .i32⟩
  | .hbm, ⟨17, _⟩ => ⟨S1024x1, .i32⟩
  | .hbm, ⟨18, _⟩ => ⟨S1024x4096, .i32⟩
  | .hbm, ⟨19, _⟩ => ⟨S1024x4096, .i32⟩
  | .hbm, ⟨20, _⟩ => ⟨S1024x4096, .i1⟩
  | .hbm, ⟨21, _⟩ => ⟨S1024x4096, .i1⟩
  | .hbm, ⟨22, _⟩ => ⟨S1024x4096, .f32⟩
  | .hbm, ⟨23, _⟩ => ⟨S16x1024x4096, .f32⟩
  | .hbm, ⟨24, _⟩ => ⟨S1x1024x4096, .f32⟩
  | .hbm, ⟨25, _⟩ => ⟨S16x1024x4096, .f32⟩
  | .hbm, ⟨26, _⟩ => ⟨S16x1024x4096, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S_S1024x1 : S_.BroadcastsInDim S1024x1 (![] : Fin 0 → Fin S1024x1.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  bcast_S1024x4096_S1x1024x4096_1_2 : S1024x4096.BroadcastsInDim S1x1024x4096 (![1, 2] : Fin 2 → Fin S1x1024x4096.rank)
  bcast_S1x1024x4096_S16x1024x4096_0_1_2 : S1x1024x4096.BroadcastsInDim S16x1024x4096 (![0, 1, 2] : Fin 3 → Fin S16x1024x4096.rank)
  dot_S16x1024x1024_S1024x4096_S16x1024x4096_2_0_01_1_n_n_wf : DotDims.WF S16x1024x1024 S1024x4096 S16x1024x4096 [2] [0] [0, 1] [1] [] []

variable [Facts₀]

def dot_S16x1024x1024_S1024x4096_S16x1024x4096_2_0_01_1_n_n : DotDims S16x1024x1024 S1024x4096 S16x1024x4096 where
  lhsContracting := [2]
  rhsContracting := [0]
  lhsNonContracting := [0, 1]
  rhsNonContracting := [1]
  lhsBatch := []
  rhsBatch := []
  wf := dot_S16x1024x1024_S1024x4096_S16x1024x4096_2_0_01_1_n_n_wf

class Facts : Prop extends Facts₀ where

variable [Facts]
-- ==== Proof.Spec.lean ====
/-
  The function both programs compute, and the word arithmetic of its mask.

  For x : [16, 1024, 1024] and W : [1024, 4096] the result at (b, s, i) is the matrix product
      ∑ o < 1024, x (b, s, o) · W (o, i)
  where column i lies in row s's band of four columns, 4·s ≤ i < 4·(s + 1), and 0 elsewhere.

  Both programs decide the band on 32-bit words, by two signed comparisons joined by a bitwise and. With s < 1024 and
  i < 4096 every word involved is below 2³¹ and no product or sum wraps, so the signed comparisons are the
  comparisons of the natural numbers.

  One program SELECTS between the product and 0 by the mask bit, the other MULTIPLIES the product by the bit read as
  the number 0 or 1. On the extended reals y · 1 = y and y · 0 = 0 for every y, infinite ones included, so the two
  agree with no condition on the inputs.
-/
import Idealize.ShloMosaic.Lib.ValueIdx
import Idealize.ShloMosaic.PureOps.Ideal.Laws
import Idealize.ShloMosaic.Lib.StableHlo.Predicate

noncomputable section

namespace Cert.BandedProduct

open Idealize.ShloMosaic Idealize.ShloMosaic.ValueIdx Idealize.ShloMosaic.StableHlo.Predicate

/-- Column `i` lies in row `s`'s band: the four columns 4·s, …, 4·s + 3. -/
abbrev Band (s i : ℕ) : Prop := 4 * s ≤ i ∧ i < 4 * (s + 1)

/-- The banded product: the matrix product inside the band, zero outside it. -/
def banded (x : (⟨3, ![16, 1024, 1024]⟩ : Shape).Idx → EReal) (W : (⟨2, ![1024, 4096]⟩ : Shape).Idx → EReal) :
    (⟨3, ![16, 1024, 4096]⟩ : Shape).Idx → EReal :=
  fun j => if Band (j 1).val (j 2).val then ∑ o : Fin 1024, x (ix3 (j 0) (j 1) o) * W (ix2 o (j 2)) else 0

theorem banded_apply (x : (⟨3, ![16, 1024, 1024]⟩ : Shape).Idx → EReal) (W : (⟨2, ![1024, 4096]⟩ : Shape).Idx → EReal)
    (b : Fin 16) (s : Fin 1024) (i : Fin 4096) :
    banded x W (ix3 b s i) = if Band s.val i.val then ∑ o : Fin 1024, x (ix3 b s o) * W (ix2 o i) else 0 := rfl

/-! ## The mask on words -/

/-- The band's lower end as a word: 4·s does not wrap. -/
theorem lower_word (s : ℕ) (hs : s < 1024) : (IntOp.muli (BitVec.ofNat 32 s) 4#32).toNat = 4 * s := by
  show (BitVec.ofNat 32 s * 4#32).toNat = 4 * s
  rw [BitVec.toNat_mul, BitVec.toNat_ofNat, BitVec.toNat_ofNat]
  omega

/-- The band's upper end as a word: 4·(s + 1) does not wrap. -/
theorem upper_word (s : ℕ) (hs : s < 1024) : (IntOp.muli (IntOp.addi (BitVec.ofNat 32 s) 1#32) 4#32).toNat = 4 * (s + 1) := by
  show ((BitVec.ofNat 32 s + 1#32) * 4#32).toNat = 4 * (s + 1)
  rw [BitVec.toNat_mul, BitVec.toNat_add, BitVec.toNat_ofNat, BitVec.toNat_ofNat, BitVec.toNat_ofNat]
  omega

/-- A column of the second half-tile as a word: ni·2048 + c, for ni < 2 and c < 2048. -/
theorem column_word (ni c : ℕ) (hni : ni < 2) (hc : c < 2048) :
    IntOp.addi (Scalar.muli (BitVec.ofNat 32 ni) 2048#32) (BitVec.ofNat 32 c) = BitVec.ofNat 32 (ni * 2048 + c) := by
  apply BitVec.eq_of_toNat_eq
  show ((BitVec.ofNat 32 ni * 2048#32) + BitVec.ofNat 32 c).toNat = _
  rw [BitVec.toNat_add, BitVec.toNat_mul, BitVec.toNat_ofNat, BitVec.toNat_ofNat, BitVec.toNat_ofNat, BitVec.toNat_ofNat]
  omega

/-- A bitwise and of two bits is 1 exactly when both are. -/
theorem and_bit (c d : BitVec 1) : IntOp.andi c d = 1#1 ↔ c = 1#1 ∧ d = 1#1 := by revert c d; decide

/-- The two signed comparisons joined by `and` answer 1 exactly on the band. -/
theorem mask_word (s i : ℕ) (hs : s < 1024) (hi : i < 4096) :
    IntOp.andi (IntOp.cmpi .sge (BitVec.ofNat 32 i) (IntOp.muli (BitVec.ofNat 32 s) 4#32))
      (IntOp.cmpi .slt (BitVec.ofNat 32 i) (IntOp.muli (IntOp.addi (BitVec.ofNat 32 s) 1#32) 4#32)) = 1#1 ↔ Band s i := by
  have hi' : (BitVec.ofNat 32 i).toNat = i := by rw [BitVec.toNat_ofNat]; omega
  have hl := lower_word s hs
  have hu := upper_word s hs
  rw [and_bit, sge_iff_toNat (by omega) (by omega), slt_iff_toNat (by omega) (by omega), hi', hl, hu]

/-! ## Selecting by a bit, and multiplying by it -/

/-- A product with a bit read as the number 0 or 1 is the selection by that bit: on the extended reals y · 1 = y and
    y · 0 = 0 whatever y is. -/
theorem mul_bit (y : EReal) (b : BitVec 1) : y * (((b.toNat : ℝ)) : EReal) = if b = 1#1 then y else 0 := by
  rcases BitVec.eq_zero_or_eq_one b with rfl | rfl
  · simp
  · simp

end Cert.BandedProduct

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Payload.lean ====
/-
  The kernel body's stored value, read at one entry.

  At grid point (ni, bi) the body holds x's block [1, 1024, 1024] (batch bi) and W's column half-tile [1024, 2048]
  (columns ni·2048 … ni·2048 + 2047). It forms the product of the two blocks into a zero accumulator, builds the band
  test on the words row r and column ni·2048 + c, and keeps the product where the test answers 1 and 0 elsewhere. So at
  entry (0, r, c) of the block it stores
      ∑ κ < 1024, x (0, r, κ) · W (κ, c)    if 4·r ≤ ni·2048 + c < 4·(r + 1),    and 0 otherwise.
-/
import proofs.«164567_j41463614275882_1_alg».proof.Proof.Gen.KernelIdeal.Skeleton
import proofs.«164567_j41463614275882_1_alg».proof.Proof.Spec
import proofs.«164567_j41463614275882_1_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.TcCoe Idealize.ShloMosaic.ValueIdx
open Cert.BandedProduct

/-- The body's contraction is a plain matrix product: rows from the left block, columns from the right, one contracted axis. -/
theorem plain : Cert.PlainDot.Plain dot_S1024x1024_S1024x2048_S1024x2048_1_0_0_1_n_n := ⟨rfl, rfl, rfl, rfl, rfl, rfl⟩

/-- The product of the two blocks into the zero accumulator, at entry (r, c). -/
theorem product_apply (x0 : Vec Ideal S1x1024x1024 .bf16) (x1 : Vec Ideal S1024x2048 .bf16) (r : Fin 1024) (c : Fin 2048) :
    matmul dot_S1024x1024_S1024x2048_S1024x2048_1_0_0_1_n_n none
        (shapeCast S1024x1024 x0 shapeCasts_S1x1024x1024_S1024x1024 : FVec Ideal S1024x1024 .bf16)
        (shapeCast S1024x2048 x1 shapeCasts_S1024x2048_S1024x2048 : FVec Ideal S1024x2048 .bf16)
        (constant S1024x2048 .f32 0x00000000#32) (ix2 r c)
      = ∑ κ : Fin 1024, x0 (ix3 (0 : Fin 1) r κ) * x1 (ix2 κ c) := by
  rw [Cert.PlainDot.matmul_zero_apply plain rfl rfl]
  refine Finset.sum_congr rfl fun κ _ => ?_
  rw [shapeCast_1ab_ab_apply, shapeCast_self]

/-- The band test the body builds, at entry (r, c) of the block at column half-tile ni: the test on the words r and ni·2048 + c. -/
theorem body_mask_iff (ni : Fin 2) (r : Fin 1024) (c : Fin 2048) :
    IntOp.andi
        (IntOp.cmpi .sge (IntOp.addi (Scalar.muli (BitVec.ofNat 32 ni.val) 2048#32) (BitVec.ofNat 32 c.val)) (IntOp.muli (BitVec.ofNat 32 r.val) 4#32))
        (IntOp.cmpi .slt (IntOp.addi (Scalar.muli (BitVec.ofNat 32 ni.val) 2048#32) (BitVec.ofNat 32 c.val)) (IntOp.muli (IntOp.addi (BitVec.ofNat 32 r.val) 1#32) 4#32)) = 1#1
      ↔ Band r.val (ni.val * 2048 + c.val) := by
  rw [column_word ni.val c.val ni.isLt c.isLt]
  exact mask_word r.val (ni.val * 2048 + c.val) r.isLt (by have := ni.isLt; have := c.isLt; omega)

/-- THE STORED VALUE at entry (u, r, c) of the block, at grid point `i` (column half-tile `i 0`). -/
theorem stored_apply (i : grid0.Coords) (x0 : Vec Ideal S1x1024x1024 .bf16) (x1 : Vec Ideal S1024x2048 .bf16)
    (u : Fin 1) (r : Fin 1024) (c : Fin 2048) :
    k0_pay1 (F := Ideal) i x0 x1 (ix3 u r c)
      = if Band r.val ((i 0).val * 2048 + c.val) then ∑ κ : Fin 1024, x0 (ix3 (0 : Fin 1) r κ) * x1 (ix2 κ c) else 0 := by
  unfold k0_pay1
  dsimp only
  rw [shapeCast_ab_1ab_apply, select_apply, product_apply]
  have hrow : iota Kind.tc S1024x2048 32 [0] iota_S1024x2048_d0_w32 (ix2 r c) = BitVec.ofNat 32 r.val :=
    iota_single_apply _ _ _ _ _ _
  have hcol : iota Kind.tc S1024x2048 32 [1] iota_S1024x2048_d1_w32 (ix2 r c) = BitVec.ofNat 32 c.val :=
    iota_single_apply _ _ _ _ _ _
  show Scalar.select
      (IntOp.andi
        (IntOp.cmpi .sge
          (IntOp.addi (Scalar.muli (BitVec.ofNat 32 (i 0).val) 2048#32) (iota Kind.tc S1024x2048 32 [1] iota_S1024x2048_d1_w32 (ix2 r c)))
          (IntOp.muli (iota Kind.tc S1024x2048 32 [0] iota_S1024x2048_d0_w32 (ix2 r c)) 4#32))
        (IntOp.cmpi .slt
          (IntOp.addi (Scalar.muli (BitVec.ofNat 32 (i 0).val) 2048#32) (iota Kind.tc S1024x2048 32 [1] iota_S1024x2048_d1_w32 (ix2 r c)))
          (IntOp.muli (IntOp.addi (iota Kind.tc S1024x2048 32 [0] iota_S1024x2048_d0_w32 (ix2 r c)) 1#32) 4#32)))
      _ (Ideal.ofBits .f32 0x00000000#32) = _
  rw [hrow, hcol, Ideal.ofBits_zero_f32]
  unfold Scalar.select
  exact if_congr (body_mask_iff (i 0) r c) rfl rfl

end Cert.KernelIdeal.Body

end
-- ==== Proof.KernelBanded.lean ====
/-
  The kernel's result array is the banded product.

  The grid has 32 points: a column half-tile ni ∈ {0, 1} and a batch bi < 16. Point (ni, bi) reads x's block
  [1, 1024, 1024] at batch bi and W's block [1024, 2048] at columns ni·2048 …, and writes the output's block
  [1, 1024, 2048] at batch bi, columns ni·2048 …. The arrays the blocks are cut from are the arguments converted to a
  narrower float format, which on the extended reals is the identity, so they are the arguments themselves.

  Entry (u, r, cc) of the output block therefore sits at array entry (bi, r, ni·2048 + cc), entry (0, r, κ) of x's block
  at (bi, r, κ), entry (κ, cc) of W's block at (κ, ni·2048 + cc); with the stored value read at an entry
  (Proof/Payload.lean) what point (ni, bi) writes back is the banded product restricted to its block. Every array entry
  (b, s, i) lies in the block of point (i / 2048, b) and every point writes back, so the 32 blocks fill the array.
-/
import proofs.«164567_j41463614275882_1_alg».proof.Proof.KernelIdealValueP
import proofs.«164567_j41463614275882_1_alg».proof.Proof.Payload
import Idealize.ShloMosaic.Lib.StableHlo.Run

set_option maxRecDepth 16384

noncomputable section

namespace Cert.KernelIdeal.Banded

open Cert.KernelIdeal Cert.KernelIdeal.Gen Cert.KernelIdeal.GenP Cert.KernelIdeal.ValueP
open Idealize.ShloMosaic Idealize.ShloMosaic.TcCoe Idealize.SL.Sem
open Idealize.ShloMosaic.Pipeline (Dat)
open Idealize.ShloMosaic.ValueIdx Cert.BandedProduct Cert.KernelIdeal.Body

variable (m : (ℓ : Loc nD τ sig) → Buf (Elt Ideal) ℓ) (ρ : Dev nD → PrngReg)

/-- The argument arrays on core `c`, as arrays of extended reals. -/
abbrev xarr (c : Dev nD) : S16x1024x1024.Idx → EReal := m ((c : Thread nD τ).loc main_arg0)
abbrev warr (c : Dev nD) : S1024x4096.Idx → EReal := m ((c : Thread nD τ).loc main_arg1)

theorem staged_x (c : Dev nD) : (V m c main_v0 : S16x1024x1024.Idx → EReal) = xarr m c := by
  dsimp only [V, hostOps0]; after_results; rfl

theorem staged_w (c : Dev nD) : (V m c main_v1 : S1024x4096.Idx → EReal) = warr m c := by
  dsimp only [V, hostOps0]; after_results; rfl

theorem idx_facts : ∀ t : Fin cfg0.N,
    win0_2.index t (0 : Fin 3) = ((grid0.coords t) 1).val ∧ win0_2.index t (1 : Fin 3) = 0 ∧ win0_2.index t (2 : Fin 3) = ((grid0.coords t) 0).val
    ∧ win0_0.index t (0 : Fin 3) = ((grid0.coords t) 1).val ∧ win0_0.index t (1 : Fin 3) = 0 ∧ win0_0.index t (2 : Fin 3) = 0
    ∧ win0_1.index t (0 : Fin 2) = 0 ∧ win0_1.index t (1 : Fin 2) = ((grid0.coords t) 0).val :=
  (by decide +kernel : ∀ t : Fin grid0.N, _)

theorem idx_onto : ∀ (q0 : Fin 16) (q2 : Fin 2), ∃ t : Fin cfg0.N, win0_2.index t = ![q0.val, 0, q2.val] :=
  (by decide +kernel : ∀ (q0 : Fin 16) (q2 : Fin 2), ∃ t : Fin grid0.N, win0_2.index t = ![q0.val, 0, q2.val])

theorem hz3 : (![0, 0, 0] : Fin 3 → Nat) = fun _ => 0 := funext fun a => by fin_cases a <;> rfl
theorem hz2 : (![0, 0] : Fin 2 → Nat) = fun _ => 0 := funext fun a => by fin_cases a <;> rfl

/-- The batch and the column half-tile grid point `t` works on, and the array column of the half-tile's column `cc`. -/
abbrev batchOf (t : Fin cfg0.N) : Fin 16 := (grid0.coords t) 1
abbrev halfOf (t : Fin cfg0.N) : Fin 2 := (grid0.coords t) 0
abbrev colOf (t : Fin cfg0.N) (cc : Fin 2048) : Fin 4096 :=
  ⟨(halfOf t).val * 2048 + cc.val, by have := (halfOf t).isLt; have := cc.isLt; omega⟩

/-- Entry (u, r, cc) of the output's block at point `t` is entry (batch, r, half·2048 + cc) of the array. -/
theorem emb_out (t : Fin cfg0.N) (u : Fin 1) (r : Fin 1024) (cc : Fin 2048) :
    ((cfg0.win 2).blk t).view.emb (ix3 u r cc : S1x1024x2048.Idx) = ix3 (batchOf t) r (colOf t cc) := by
  obtain ⟨e0, e1, e2, -⟩ := idx_facts t
  funext a; apply Fin.ext
  match a with
  | ⟨0, _⟩ => show win0_2.index t (0 : Fin 3) * 1 + 1 * u.val = ((grid0.coords t) 1).val; have := u.isLt; omega
  | ⟨1, _⟩ => show win0_2.index t (1 : Fin 3) * 1024 + 1 * r.val = r.val; omega
  | ⟨2, _⟩ => show win0_2.index t (2 : Fin 3) * 2048 + 1 * cc.val = ((grid0.coords t) 0).val * 2048 + cc.val; omega

/-- Entry (0, r, κ) of x's block at point `t` is entry (batch, r, κ) of x. -/
theorem emb_x (t : Fin cfg0.N) (r κ : Fin 1024) :
    ((cfg0.win 0).blk t).view.emb (ix3 (0 : Fin 1) r κ : S1x1024x1024.Idx) = ix3 (batchOf t) r κ := by
  obtain ⟨-, -, -, e0, e1, e2, -⟩ := idx_facts t
  funext a; apply Fin.ext
  match a with
  | ⟨0, _⟩ => show win0_0.index t (0 : Fin 3) * 1 + 1 * 0 = ((grid0.coords t) 1).val; omega
  | ⟨1, _⟩ => show win0_0.index t (1 : Fin 3) * 1024 + 1 * r.val = r.val; omega
  | ⟨2, _⟩ => show win0_0.index t (2 : Fin 3) * 1024 + 1 * κ.val = κ.val; omega

/-- Entry (κ, cc) of W's block at point `t` is entry (κ, half·2048 + cc) of W. -/
theorem emb_w (t : Fin cfg0.N) (κ : Fin 1024) (cc : Fin 2048) :
    ((cfg0.win 1).blk t).view.emb (ix2 κ cc : S1024x2048.Idx) = ix2 κ (colOf t cc) := by
  obtain ⟨-, -, -, -, -, -, e0, e1⟩ := idx_facts t
  funext a; apply Fin.ext
  match a with
  | ⟨0, _⟩ => show win0_1.index t (0 : Fin 2) * 1024 + 1 * κ.val = κ.val; omega
  | ⟨1, _⟩ => show win0_1.index t (1 : Fin 2) * 2048 + 1 * cc.val = ((grid0.coords t) 0).val * 2048 + cc.val; omega

/-- x's block at point `t`, at an entry. -/
theorem blk_x (c : Dev nD) (t : Fin cfg0.N) (r κ : Fin 1024) :
    iblk m c 0 t (ix3 (0 : Fin 1) r κ : S1x1024x1024.Idx) = xarr m c (ix3 (batchOf t) r κ) := by
  show (V m c main_v0 : S16x1024x1024.Idx → EReal) (((cfg0.win 0).blk t).view.emb (ix3 (0 : Fin 1) r κ : S1x1024x1024.Idx)) = _
  rw [emb_x, staged_x]

/-- W's block at point `t`, at an entry. -/
theorem blk_w (c : Dev nD) (t : Fin cfg0.N) (κ : Fin 1024) (cc : Fin 2048) :
    iblk m c 1 t (ix2 κ cc : S1024x2048.Idx) = warr m c (ix2 κ (colOf t cc)) := by
  show (V m c main_v1 : S1024x4096.Idx → EReal) (((cfg0.win 1).blk t).view.emb (ix2 κ cc : S1024x2048.Idx)) = _
  rw [emb_w, staged_w]

/-- What the body stores at point `t`, entry by entry, is the banded product of the argument arrays at the array
    entry the block's entry lies at. -/
theorem point_eq (c : Dev nD) (t : Fin cfg0.N) (y : S1x1024x2048.Idx) :
    k0_pay1 (F := Ideal) (grid0.coords t) (iblk m c 0 t) (iblk m c 1 t) y
      = banded (xarr m c) (warr m c) (((cfg0.win 2).blk t).view.emb y) := by
  obtain ⟨u, r, cc, rfl⟩ : ∃ (u : Fin 1) (r : Fin 1024) (cc : Fin 2048), y = ix3 u r cc := ⟨y 0, y 1, y 2, eq_ix3 y⟩
  refine (stored_apply (grid0.coords t) (iblk m c 0 t) (iblk m c 1 t) u r cc).trans ?_
  rw [emb_out, banded_apply]
  refine if_congr Iff.rfl (Finset.sum_congr rfl fun κ _ => ?_) rfl
  rw [blk_x, blk_w]

theorem flushed_eq (c : Dev nD) (t : Fin cfg0.N) :
    (dats m 0 c).flushed 2 t = ((cfg0.win 2).blk t).view.read (Elt Ideal) (banded (xarr m c) (warr m c)) := by
  rw [flushed2]
  unfold out0_2
  rw [View.canon_unit_zero hz3]
  simp only [View.ld_unit_zero (S := S1x1024x1024) hz3, View.ld_unit_zero (S := S1024x2048) hz2]
  funext y
  exact point_eq m c t y

/-- An array index lies in point `t`'s output block iff each coordinate lies in the block's range on its axis. -/
theorem mem_blk (t : Fin cfg0.N) (j : S16x1024x4096.Idx) :
    j ∈ ((cfg0.win 2).blk t).view.set ↔ ∀ a : Fin 3, win0_2.index t a * S1x1024x2048.size a ≤ (j a).val
      ∧ (j a).val < win0_2.index t a * S1x1024x2048.size a + S1x1024x2048.size a := by
  show j ∈ ((View.whole main_v2).slice (win0_2.rect t)).set ↔ _
  rw [View.set_slice_whole, Rect.mem_set_unit]
  exact Iff.rfl

/-- The output's blocks fill the array: entry (b, s, i) lies in the block of the point at batch b and column half-tile
    i / 2048, and every point writes its block back. -/
theorem cover (j : S16x1024x4096.Idx) :
    ∃ t : Fin cfg0.N, (cfg0.win 2).flush t = true ∧ j ∈ ((cfg0.win 2).blk t).view.set := by
  have h0 : (j 0).val < 16 := (j 0).isLt
  have h1 : (j 1).val < 1024 := (j 1).isLt
  have h2 : (j 2).val < 4096 := (j 2).isLt
  obtain ⟨t, ht⟩ := idx_onto ⟨(j 0).val, h0⟩ ⟨(j 2).val / 2048, by omega⟩
  have q0 : win0_2.index t (0 : Fin 3) = (j 0).val := congrFun ht 0
  have q1 : win0_2.index t (1 : Fin 3) = 0 := congrFun ht 1
  have q2 : win0_2.index t (2 : Fin 3) = (j 2).val / 2048 := congrFun ht 2
  refine ⟨t, flush0_2 t, ?_⟩
  rw [mem_blk]
  intro a
  match a with
  | ⟨0, _⟩ => show win0_2.index t (0 : Fin 3) * 1 ≤ (j 0).val ∧ (j 0).val < win0_2.index t (0 : Fin 3) * 1 + 1; omega
  | ⟨1, _⟩ => show win0_2.index t (1 : Fin 3) * 1024 ≤ (j 1).val ∧ (j 1).val < win0_2.index t (1 : Fin 3) * 1024 + 1024; omega
  | ⟨2, _⟩ => show win0_2.index t (2 : Fin 3) * 2048 ≤ (j 2).val ∧ (j 2).val < win0_2.index t (2 : Fin 3) * 2048 + 2048; omega

/-- THE RESULT ARRAY after the run is the banded product of the argument arrays. -/
theorem result_eq (c : Dev nD) : (dats m 0 c).arrAt 2 cfg0.N = banded (xarr m c) (warr m c) :=
  (dats m 0 c).arrAt_eq_of_cover 2 (banded (xarr m c) (warr m c)) (fun t _ => flushed_eq m c t) cover

/-- The kernel's run: it terminates with the result array at the banded product and the arguments unchanged. -/
theorem run : θ_run defs (onTc (τ := τ) (main (F := Ideal))) ⟨m, fun _ => 0, ρ⟩ fun r => ∀ c : Dev nD,
      r.2.mem ((c : Thread nD τ).loc main_v2) = banded (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (run_blocks m ρ)

end Cert.KernelIdeal.Banded

end
-- ==== Proof.RefBanded.lean ====
/-
  The reference, read at one entry.

  The reference forms the whole product y (b, s, i) = ∑ o, x (b, s, o) · W (o, i) and multiplies it by the band mask
  read as a number: the mask is the band test on the words s (an iota over 1024 rows, laid along the rows) and i (an
  iota over 4096 columns, laid along the columns), converted from a bit to 0 or 1 and laid along the batch axis. A
  product with that number is the selection by the bit, so the result is the banded product.
-/
import proofs.«164567_j41463614275882_1_alg».proof.Proof.Gen.ReferenceIdeal.Read
import proofs.«164567_j41463614275882_1_alg».proof.Proof.Spec

noncomputable section

namespace Cert.ReferenceIdeal.Banded

open Cert.ReferenceIdeal Cert.ReferenceIdeal.Gen Cert.ReferenceIdeal.Read Idealize.ShloMosaic Idealize.ShloMosaic.TcCoe
open Idealize.ShloMosaic.ValueIdx Cert.BandedProduct

/-- The mask bit at row s, column i: the two signed comparisons of the words i, 4·s and 4·(s + 1), joined by `and`. -/
theorem mask_apply (s : Fin 1024) (i : Fin 4096) :
    val_main_v16 (F := Ideal) (ix2 s i)
      = IntOp.andi (IntOp.cmpi .sge (BitVec.ofNat 32 i.val) (IntOp.muli (BitVec.ofNat 32 s.val) 4#32))
          (IntOp.cmpi .slt (BitVec.ofNat 32 i.val) (IntOp.muli (IntOp.addi (BitVec.ofNat 32 s.val) 1#32) 4#32)) := by
  simp only [val_main_v16_apply, val_main_v8_apply, val_main_v15_apply, val_main_v6_apply, val_main_v7_apply, val_main_v13_apply,
    val_main_v14_apply, val_main_v3_apply, val_main_v5_apply, val_main_v12_apply, val_main_v2_apply, val_main_v1_apply,
    val_main_v4_apply, val_main_v10_apply, val_main_v11_apply, val_main_v0_apply, val_main_v9_apply, val_main_c_apply,
    val_main_c_0_apply, val_main_c_1_apply]

/-- THE REFERENCE'S RESULT is the banded product of its arguments. -/
theorem result_eq (x : FVec Ideal S16x1024x1024 .f32) (W : FVec Ideal S1024x4096 .f32) :
    val_main_v21 (F := Ideal) x W = banded x W := by
  funext j
  obtain ⟨b, s, i, rfl⟩ : ∃ (b : Fin 16) (s : Fin 1024) (i : Fin 4096), j = ix3 b s i := ⟨j 0, j 1, j 2, eq_ix3 j⟩
  rw [val_main_v21_apply, val_main_v18_apply, val_main_v20_apply, val_main_v19_apply, val_main_v17_apply, banded_apply]
  have hmask : idx_main_v19 (idx_main_v20 (ix3 b s i)) = ix2 s i :=
    funext fun a => Fin.ext (by match a with | ⟨0, _⟩ => rfl | ⟨1, _⟩ => rfl)
  have hl : ∀ k : Fin 1024, lidx_main_v18 (ix3 b s i) k = ix3 b s k := fun k =>
    funext fun a => Fin.ext (by match a with | ⟨0, _⟩ => rfl | ⟨1, _⟩ => rfl | ⟨2, _⟩ => rfl)
  have hr : ∀ k : Fin 1024, ridx_main_v18 (ix3 b s i) k = ix2 k i := fun k =>
    funext fun a => Fin.ext (by match a with | ⟨0, _⟩ => rfl | ⟨1, _⟩ => rfl)
  simp only [hmask, hl, hr]
  rw [mask_apply]
  show (∑ k : Fin 1024, x (ix3 b s k) * W (ix2 k i)) * ((((IntOp.andi _ _ : BitVec 1).toNat : ℝ)) : EReal) = _
  rw [mul_bit]
  exact if_congr (mask_word s.val i.val s.isLt i.isLt) rfl rfl

end Cert.ReferenceIdeal.Banded

end
-- ==== Proof.lean ====
/-
  A banded matrix product, computed two ways, is one function on the extended reals.

  Inputs x : [16, 1024, 1024] and W : [1024, 4096]. For batch b, row s and column i the result is
      ∑ o < 1024, x (b, s, o) · W (o, i)   when 4·s ≤ i < 4·(s + 1),   and 0 otherwise:
  row s of the product keeps its band of four columns.

  The kernel walks a grid of 2 column half-tiles by 16 batches. At each point it multiplies x's batch block by W's half
  of the columns into a zero accumulator, builds the band test from the row number, the column number inside the
  half-tile and the half-tile's offset ni · 2048, and SELECTS the product inside the band and 0 outside. The 32 output
  blocks tile the result array, so the array ends at the banded product (Proof/Payload.lean: the stored value at an
  entry; Proof/KernelBanded.lean: the blocks and the array).

  The reference multiplies the whole product by the band mask converted to the numbers 0 and 1. On the extended reals
  y · 1 = y and y · 0 = 0 for every y, so the product with the mask is the same selection (Proof/Spec.lean,
  Proof/RefBanded.lean). Nothing here needs the inputs to be finite.

  The conversion of the inputs to a narrower float format before the kernel is the identity on the extended reals, and
  the idealized kernel is the kernel's own text read on the extended reals, so that conjunct is trivial.
-/
import proofs.«164567_j41463614275882_1_alg».proof.Defs
import proofs.«164567_j41463614275882_1_alg».proof.Proof.Gen.Kernel
import proofs.«164567_j41463614275882_1_alg».proof.Proof.Gen.KernelIdeal
import proofs.«164567_j41463614275882_1_alg».proof.Proof.Gen.ReferenceIdeal
import proofs.«164567_j41463614275882_1_alg».proof.Proof.Gen.Pre_finite_inputs
import proofs.«164567_j41463614275882_1_alg».proof.Proof.KernelFrameP
import proofs.«164567_j41463614275882_1_alg».proof.Proof.KernelBanded
import proofs.«164567_j41463614275882_1_alg».proof.Proof.RefBanded
import Idealize.ShloMosaic.Adequacy
import Idealize.ShloMosaic.Init

noncomputable section

namespace Cert.Proof

open Idealize.ShloMosaic Idealize.ShloMosaic.TcCoe Idealize.SL.Sem

namespace Claims

/-- The kernel as printed runs, faults nowhere and leaves its arguments unchanged. -/
theorem frame_k : Cert.frame_Kernel := fun m ρ _ => Cert.Kernel.GenP.frame m ρ

/-- So does its reading on the extended reals. -/
theorem frame_ki : Cert.frame_KernelIdeal := fun m ρ _ => Cert.KernelIdeal.GenP.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the banded product of arguments that agree. -/
theorem algebraic : Cert.algebraic_KernelIdeal_ReferenceIdeal := by
  intro m ρ m' ρ' _ hagree
  refine ⟨_, Cert.KernelIdeal.Banded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Banded.result_eq, (hagree c).1, (hagree c).2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
